-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S128x128 : Shape := ⟨2, ![128, 128]⟩
abbrev S128x1 : Shape := ⟨2, ![128, 1]⟩
abbrev S128x8192 : Shape := ⟨2, ![128, 8192]⟩
abbrev S128 : Shape := ⟨1, ![128]⟩

abbrev nBuf : Space → Nat
  | .hbm => 19
  | .vmem => 8
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x128, .f32⟩
  | .hbm, ⟨11, _⟩ => ⟨S8192x128, .f32⟩
  | .hbm, ⟨12, _⟩ => ⟨S8192x1, .i32⟩
  | .hbm, ⟨13, _⟩ => ⟨S1x8192, .i32⟩
  | .hbm, ⟨14, _⟩ => ⟨S8192x1, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S128x128, .f32⟩
  | .local _ .vmem, ⟨1, _⟩ => ⟨S128x128, .f32⟩
  | .local _ .vmem, ⟨2, _⟩ => ⟨S8192x128, .f32⟩
  | .local _ .vmem, ⟨3, _⟩ => ⟨S128x1, .i32⟩
  | .local _ .vmem, ⟨4, _⟩ => ⟨S128x1, .i32⟩
  | .local _ .vmem, ⟨5, _⟩ => ⟨S1x8192, .i32⟩
  | .local _ .vmem, ⟨6, _⟩ => ⟨S128x1, .f32⟩
  | .local _ .vmem, ⟨7, _⟩ => ⟨S128x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  shapeCasts_S8192_S8192x1 : S8192.ShapeCasts S8192x1
  shapeCasts_S8192_S1x8192 : S8192.ShapeCasts S1x8192
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  transposes_S8192x128_p1_0_S128x8192 : S8192x128.Transposes [1, 0] S128x8192
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S128x1_S128x8192 : S128x1.Broadcasts S128x8192
  broadcasts_S1x8192_S128x8192 : S1x8192.Broadcasts S128x8192
  iota_S128x8192_d0_w32 : S128x8192.Iotas .tc 32 [0]
  iota_S128x8192_d1_w32 : S128x8192.Iotas .tc 32 [1]
  natLt_1_32 : 1 < 32
  reduces_S128x8192_S128 : S128x8192.Reduces [1] S128
  shapeCasts_S128_S128x1 : S128.ShapeCasts S128x1
  reducesTo_S8192x1_S_d0_1 : S8192x1.ReducesTo [0, 1] S_
  dot_S128x128_S128x8192_S128x8192_1_0_0_1_n_n_wf : DotDims.WF S128x128 S128x8192 S128x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S8192x128.size a
  hwx0_0 : ∀ i : grid0.Coords, EltTy.bits .f32 = 32 ∨ (Rect.block (s := S8192x128) S128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .f32 = 32 ∨ (Rect.block (s := S8192x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S8192x1.size a
  hwx0_2 : ∀ i : grid0.Coords, EltTy.bits .i32 = 32 ∨ (Rect.block (s := S8192x1) S128x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .i32 = 32 ∨ (Rect.block (s := S1x8192) S1x8192.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S8192x1.size a
  hwx0_4 : ∀ i : grid0.Coords, EltTy.bits .f32 = 32 ∨ (Rect.block (s := S8192x1) S128x1.size (cc0_transform_4 i) (hinb0_4 i)).WholeWords (EltTy.packing .f32)

variable [Facts₀]

def dot_S128x128_S128x8192_S128x8192_1_0_0_1_n_n : DotDims S128x128 S128x8192 S128x8192 where
  lhsContracting := [1]
  rhsContracting := [0]
  lhsNonContracting := [0]
  rhsNonContracting := [1]
  lhsBatch := []
  rhsBatch := []
  wf := dot_S128x128_S128x8192_S128x8192_1_0_0_1_n_n_wf

abbrev win0_0 : Pipeline.Window sig grid0 :=
  Pipeline.Window.ofSpec (Memref.whole main_v4) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S128x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S8192x8192 : Shape := ⟨2, ![8192, 8192]⟩
abbrev S1x8192 : Shape := ⟨2, ![1, 8192]⟩

abbrev nBuf : Space → Nat
  | .hbm => 50
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x128, .f32⟩
  | .hbm, ⟨11, _⟩ => ⟨S8192x128, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S8192x1, .i32⟩
  | .hbm, ⟨17, _⟩ => ⟨S1x8192, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S8192x8192, .f32⟩
  | .hbm, ⟨22, _⟩ => ⟨S8192x8192, .i32⟩
  | .hbm, ⟨23, _⟩ => ⟨S8192x8192, .i32⟩
  | .hbm, ⟨24, _⟩ => ⟨S_, .i32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S8192x8192, .f32⟩
  | .hbm, ⟨29, _⟩ => ⟨S_, .f32⟩
  | .hbm, ⟨30, _⟩ => ⟨S8192x8192, .f32⟩
  | .hbm, ⟨31, _⟩ => ⟨S8192x8192, .f32⟩
  | .hbm, ⟨32, _⟩ => ⟨S8192x8192, .f32⟩
  | .hbm, ⟨33, _⟩ => ⟨S8192x8192, .f32⟩
  | .hbm, ⟨34, _⟩ => ⟨S_, .f32⟩
  | .hbm, ⟨35, _⟩ => ⟨S8192, .f32⟩
  | .hbm, ⟨36, _⟩ => ⟨S_, .f32⟩
  | .hbm, ⟨37, _⟩ => ⟨S8192x8192, .f32⟩
  | .hbm, ⟨38, _⟩ => ⟨S8192x8192, .f32⟩
  | .hbm, ⟨39, _⟩ => ⟨S8192x8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S8192, .f32⟩
  | .hbm, ⟨44, _⟩ => ⟨S8192, .f32⟩
  | .hbm, ⟨45, _⟩ => ⟨S8192, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  bcast_S_S8192x8192 : S_.BroadcastsInDim S8192x8192 (![] : Fin 0 → Fin S8192x8192.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  reducesTo_S8192_S_d0 : S8192.ReducesTo [0] S_
  dot_S8192x128_S8192x128_S8192x8192_1_1_0_0_n_n_wf : DotDims.WF S8192x128 S8192x128 S8192x8192 [1] [1] [0] [0] [] []

variable [Facts₀]

def dot_S8192x128_S8192x128_S8192x8192_1_1_0_0_n_n : DotDims S8192x128 S8192x128 S8192x8192 where
  lhsContracting := [1]
  rhsContracting := [1]
  lhsNonContracting := [0]
  rhsNonContracting := [0]
  lhsBatch := []
  rhsBatch := []
  wf := dot_S8192x128_S8192x128_S8192x8192_1_1_0_0_n_n_wf

class Facts : Prop extends Facts₀ where

variable [Facts]
-- ==== Proof.LibSharedArrays.lean ====
/-
  The frame run of a one-region program whose kernel is handed ONE array through several input windows.

  A pipeline whose windows are pairwise on different arrays holds every array whole at the full share. When two input
  windows read one array, the array's full share is divided among them at the region's entry (each window holds its own
  positive share of the same contents), and nothing has to be put together again afterwards: the host lines that follow
  the region are run within the buffers that bypass the region and the array of ONE output window `wo`, which the core
  holds at the full share like any output. The run ends with every window's array at what the write-backs made of it
  and every bypassing buffer at what the later host lines computed from the region's exit contents.
-/
import Idealize.ShloMosaic.Lib.Pipeline.FrameSuffix

noncomputable section

namespace Idealize.ShloMosaic

open Idealize.SL
open Idealize.SL.BI (sProp bigSep bigSep_map bigSep_union bigSep_congr bigSep_insert bigSep_erase)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}

namespace Pipeline

open Idealize.ShloMosaic.Rounds

namespace SharedArrays

section Tail

variable {Ix : Type} [DecidableEq Ix] {Name : Type} [DecidableEq Name] {U : Type} [URA U] {Lvl : Type}
variable {Λ₀ : SL.Sem.Labels} {P : Type} [Fintype P] [DecidableEq P]
variable (pcs : P → PCfg sig Λ₀ Val) (defs₀ : Defs nD τ sig Val Λ₀) (𝒱₀ : Variants)

local notation "𝕄" => MT nD τ sig Ix Val Name U Lvl
local notation "𝔻" => Pipeline.defs pcs defs₀
local notation "𝕍" => Variants.lift 𝒱₀

variable (sig) in
/-- The buffers a host line after the region may touch: the array of the one window `wo` and the buffers that bypass
    the region. -/
def tailRefs1 {gr : Nat} {W : Nat} (win : Fin W → WinSpec sig gr) (wo : Fin W) : Finset (DevRef τ sig) :=
  (insert (arrRef win wo) (restRefs sig win)).map ⟨Proc.devRef (sig := sig) .tc, Proc.devRef_injective _⟩

/-- The core's buffer contents at the region's exit as the later lines see them: window `wo`'s array at `A`, every
    other buffer as it was at the region's entry. -/
def exitVal {gr : Nat} {W : Nat} (win : Fin W → WinSpec sig gr) (wo : Fin W) (c : Dev nD) (V : Valuation τ sig Val)
    (A : Buf Val ((win wo).arr.view.loc (c.tc : Thread nD τ))) : Valuation τ sig Val := by
  classical
  exact Function.update V (Proc.devRef .tc (arrRef win wo)) A

omit [Fintype P] [DecidableEq P] in
theorem exitVal_arr {gr : Nat} {W : Nat} (win : Fin W → WinSpec sig gr) (wo : Fin W) (c : Dev nD) (V : Valuation τ sig Val)
    (A : Buf Val ((win wo).arr.view.loc (c.tc : Thread nD τ))) :
    exitVal win wo c V A (Proc.devRef .tc (arrRef win wo)) = A := by
  unfold exitVal; exact Function.update_self ..

omit [Fintype P] [DecidableEq P] in
theorem exitVal_of_ne {gr : Nat} {W : Nat} (win : Fin W → WinSpec sig gr) (wo : Fin W) (c : Dev nD) (V : Valuation τ sig Val)
    (A : Buf Val ((win wo).arr.view.loc (c.tc : Thread nD τ))) (b : Ref sig .tc) (hb : b ≠ arrRef win wo) :
    exitVal win wo c V A (Proc.devRef .tc b) = V (Proc.devRef .tc b) := by
  unfold exitVal
  exact Function.update_of_ne (fun e => hb (Proc.devRef_injective _ e)) ..

omit [Fintype P] [DecidableEq P] in
/-- Those buffers held at `Wv`: the window's array and the bypassing buffers at `Wv`. -/
theorem held_tailRefs1 {gr : Nat} {W : Nat} (win : Fin W → WinSpec sig gr) (wo : Fin W) (c : Dev nD) (Wv : Valuation τ sig Val) :
    (StableHlo.held (c.tc : Thread nD τ) (tailRefs1 sig win wo) Wv : sProp 𝕄)
      = iprop((((c.tc : Thread nD τ).loc (arrRef win wo)) ↦{fullShare} Wv (Proc.devRef .tc (arrRef win wo)))
          ∗ unscopedRest win c (fun b => Wv (Proc.devRef .tc b))) := by
  classical
  have hnm : arrRef win wo ∉ restRefs sig win := fun h =>
    (Finset.mem_sdiff.mp h).2 (Finset.mem_image.mpr ⟨wo, Finset.mem_univ _, rfl⟩)
  unfold StableHlo.held tailRefs1 unscopedRest
  rw [bigSep_map, bigSep_insert hnm]
  rfl

omit [Fintype P] [DecidableEq P] in
set_option backward.isDefEq.respectTransparency.types false in
/-- The host lines after the region: from the region's exit — the boundary, window `wo`'s array at `A`, the bypassing
    buffers at `V` — lines that touch only those buffers (`hsub`), allocate nothing and do not write the array
    (`hkeep`) run to their end, leaving the array at `A` and the bypassing buffers at `StableHlo.after` of the lines from
    the exit contents. -/
theorem tail_seq1 [Preorder Lvl] {gr : Nat} {W : Nat} (win : Fin W → WinSpec sig gr) (wo : Fin W)
    (c : Dev nD) (V : Valuation τ sig Val) (A : Buf Val ((win wo).arr.view.loc (c.tc : Thread nD τ)))
    (ops : List (HloOp τ sig Val))
    (hsub : ∀ op ∈ ops, op.bufs ⊆ tailRefs1 sig win wo)
    (hfresh : ∀ op ∈ ops, op.fresh = ∅)
    (hkeep : ∀ op ∈ ops, Proc.devRef .tc (arrRef win wo) ∉ op.writes)
    (Q' : PUnit → sProp 𝕄) :
    iprop((iprop((((c.tc : Thread nD τ).loc (arrRef win wo)) ↦{fullShare} A)
              ∗ unscopedRest win c (fun b => StableHlo.after ops (exitVal win wo c V A) (Proc.devRef .tc b))) -∗ Q' ⟨⟩)
        ∗ boundary (c.tc : Thread nD τ) ∗ (((c.tc : Thread nD τ).loc (arrRef win wo)) ↦{fullShare} A)
        ∗ unscopedRest win c (fun b => V (Proc.devRef .tc b)))
      ⊢ wp frame (wpE 𝔻 𝕍 (c.tc : Thread nD τ) none) Set.univ (chain [StableHlo.seq ops]) Q' := by
  classical
  have hrest : ∀ b ∈ restRefs sig win, b ≠ arrRef win wo := fun b hb e =>
    (Finset.mem_sdiff.mp hb).2 (Finset.mem_image.mpr ⟨wo, Finset.mem_univ _, e.symm⟩)
  have hW : (StableHlo.held (c.tc : Thread nD τ) (tailRefs1 sig win wo) (exitVal win wo c V A) : sProp 𝕄)
      = iprop((((c.tc : Thread nD τ).loc (arrRef win wo)) ↦{fullShare} A) ∗ unscopedRest win c (fun b => V (Proc.devRef .tc b))) := by
    rw [held_tailRefs1, exitVal_arr]
    congr 1
    unfold unscopedRest
    exact bigSep_congr fun b hb => by dsimp only; rw [exitVal_of_ne win wo c V A b (hrest b hb)]
  have hW' : (StableHlo.held (c.tc : Thread nD τ) (tailRefs1 sig win wo) (StableHlo.after ops (exitVal win wo c V A)) : sProp 𝕄)
      = iprop((((c.tc : Thread nD τ).loc (arrRef win wo)) ↦{fullShare} A)
          ∗ unscopedRest win c (fun b => StableHlo.after ops (exitVal win wo c V A) (Proc.devRef .tc b))) := by
    rw [held_tailRefs1, StableHlo.after_of_forall_not_mem _ _ hkeep, exitVal_arr]
  have hs : ∀ o ∈ [ops], ∀ op ∈ o, op.bufs ⊆ tailRefs1 sig win wo := fun o ho op h => by
    rw [List.mem_singleton] at ho; subst ho; exact hsub op h
  have hf : ∀ o ∈ [ops], ∀ op ∈ o, op.fresh = ∅ := fun o ho op h => by
    rw [List.mem_singleton] at ho; subst ho; exact hfresh op h
  rw [show (chain [StableHlo.seq ops] : Prog (TpuEff nD τ sig Val (Sig Λ₀ P fun p => (pcs p).Adm) .tc) PUnit)
      = chain (([ops] : List (List (HloOp τ sig Val))).map StableHlo.seq ++ []) from rfl, ← hW]
  iintro ⟨Hk, Hb⟩
  iapply (wp_seqs_then pcs defs₀ 𝒱₀ c (tailRefs1 sig win wo) [] [ops] hs hf (exitVal win wo c V A)) $$ Hb
  iintro Hb
  rw [chain_nil, wp_pure, List.flatten_cons, List.flatten_nil, List.append_nil, hW']
  imodintro
  iapply Hk
  icases Hb with ⟨-, H⟩
  iexact H

end Tail

section Frame

variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- What the run ends with: every window's array at what the write-backs made of it, every bypassing buffer at what the
    host lines after the region computed from the exit contents. -/
def Post (wo : Fin (cfg).W) (V₀ : Dev nD → Valuation τ sig Val) (ops : List (HloOp τ sig Val))
    (r : PUnit × MemSt nD τ sig Val) : Prop :=
  ∀ c : Dev nD,
    (∀ w, r.2.mem (((cfg).spec w).arr.view.loc (c.tc : Thread nD τ)) = (dats p c).arrAt w (cfg).N)
    ∧ ∀ b ∈ restRefs sig (cfg).spec, r.2.mem ((c.tc : Thread nD τ).loc b)
        = StableHlo.after ops (exitVal (cfg).spec wo c (V₀ c) ((dats p c).arrAt wo (cfg).N)) (Proc.devRef .tc b)

/-- THE FRAME RUN of a one-region program whose windows may share arrays, @main continuing after the region with the host
    lines `ops`: the certificate says how the buffers behind the arrays, each whole at the full share at the entry
    contents, make the proof data's arrays at entry (`hsplit`: an array read through several input windows divided
    among them); the later lines touch only the bypassing buffers and the array of the output window `wo`. -/
theorem θ_run_frame_around_shared
    (hinj : Function.Injective (cellOf (nD := nD) (τ := τ) cfgs))
    (hw : WinFacts₀ (cfg).spec) (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (wo : Fin (cfg).W) (hwo : ∀ c, (dats p c).share wo = fullShare)
    (V₀ : Dev nD → Valuation τ sig Val) (ops : List (HloOp τ sig Val))
    (hsub : ∀ op ∈ ops, op.bufs ⊆ tailRefs1 sig (cfg).spec wo)
    (hfresh : ∀ op ∈ ops, op.fresh = ∅)
    (hkeep : ∀ op ∈ ops, Proc.devRef .tc (arrRef (cfg).spec wo) ∉ op.writes)
    (hmain : HMainK (Ix := Unit) (Name := ℕ) (U := UR sig nD τ) (Lvl := ℕ) cfgs p defs₀ 𝒱₀ m main
      (fun c b => V₀ c (Proc.devRef .tc b)) (fun _ => chain [StableHlo.seq ops]))
    (hsplit : ∀ c, arrBufs (cfg).spec c (fun b => V₀ c (Proc.devRef .tc b)) ⊢ (dats p c).arrays ((dats p c).arrAt · 0))
    (hΦ : ∀ c t, (dats p c).Φ t = ΦA (cfg).spec c) :
    θ_run 𝔻 (onTc main) (s₀ m g) (Post cfgs dats p wo V₀ ops) := by
  classical
  exact θ_run_region_pf_tail (fun q => (cfgs q).toPCfg (Val := Val)) (fun q => (cfgs q).toPCfg_adm) dats () hinj p hw
    (OwnSemFacts.none (cfg).spec) (PreFacts.none _) emb₁ defs₀ 𝒱₀ m g main
    (fun _ => chain [StableHlo.seq ops]) hbody
    hne harr hstage howed
    (G := fun _ => iprop(emp)) (u₀ := initOf (cells cfgs hinj) (launchToks cfgs hinj))
    (hu₀ := by
      iintro Hu; imodintro
      isplitl [Hu]; · iapply (show (ownU _ : sProp 𝕄) ⊢ BI.own (emb₁ (initOf (cells cfgs hinj) (launchToks cfgs hinj))) from .rfl); iexact Hu
      iapply (show (BI.emp : sProp 𝕄) ⊢ bigSep Finset.univ (fun _ : Dev nD => (BI.emp : sProp 𝕄)) from by rw [BI.bigSep_emp_const])
      iempintro)
    (V := fun c b => V₀ c (Proc.devRef .tc b)) (hmain := hmain)
    (hsplit := hsplit)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none (cfg).spec c (fun b => V₀ c (Proc.devRef .tc b)))
    (Z' := fun c => unscopedRestP (Ix := Unit) (Name := ℕ) (U := UR sig nD τ) (Lvl := ℕ) Prefetch.none (cfg).spec c
      (fun b => StableHlo.after ops (exitVal (cfg).spec wo c (V₀ c) ((dats p c).arrAt wo (cfg).N)) (Proc.devRef .tc b)))
    (hX := fun c => by
      iintro ⟨HU, -, -, -, Hp, -⟩; imodintro
      isplitl [Hp]; · iexists _; iexact Hp
      iexact HU)
    (hin := fun c => by
      rw [hΦ]; unfold ΦA
      iintro ⟨Hp, -, Hr⟩
      isplitl [Hr] <;> iassumption)
    (hout := fun c => by
      rw [hΦ, ownSems0_none]; unfold ΦA
      iintro ⟨Hr, Hp⟩
      isplitl [Hp]; · iexact Hp
      isplitr; · iempintro
      iexact Hr)
    (htail := fun c Q' => by
      have hsp : ∀ F, (dats p c).arrays F
          = iprop((((c.tc : Thread nD τ).loc (arrRef (cfg).spec wo)) ↦{fullShare} F wo)
              ∗ bigSep (Finset.univ.erase wo) fun w : Fin (cfg).W =>
                  (((cfg).win w).arr.view.loc (c.tc : Thread nD τ) ↦[((cfg).win w).arr.view.set]{(dats p c).share w} F w : sProp 𝕄)) := fun F => by
        unfold Dat.arrays
        rw [bigSep_erase (Finset.mem_univ wo), (harr wo).set_eq_univ, hwo]
        rfl
      rw [hsp, unscopedRestP_none, unscopedRestP_none]
      iintro ⟨Hk, Hb, ⟨Hwo, Hoth⟩, HZ⟩
      iapply (tail_seq1 (fun q => (cfgs q).toPCfg (Val := Val)) defs₀ 𝒱₀ (cfg).spec wo c (V₀ c) ((dats p c).arrAt wo (cfg).N) ops hsub hfresh hkeep Q')
      isplitl [Hk Hoth]
      · iintro ⟨Hwo, HZ⟩
        iapply Hk
        isplitr [HZ]
        · isplitl [Hwo]; · iexact Hwo
          iexact Hoth
        · iexact HZ
      · isplitl [Hb]; · iexact Hb
        isplitl [Hwo]; · iexact Hwo
        iexact HZ)
    (QY := fun c s => ∀ b ∈ restRefsP sig Prefetch.none (cfg).spec, s.mem ((c.tc : Thread nD τ).loc b)
        = StableHlo.after ops (exitVal (cfg).spec wo c (V₀ c) ((dats p c).arrAt wo (cfg).N)) (Proc.devRef .tc b))
    (hY := fun c s' => by
      iintro ⟨-, HU, HSI⟩
      unfold unscopedRestP
      imodintro
      iapply (pointsTo_read_all (restRefsP sig Prefetch.none (cfg).spec) (fun b => (c.tc : Thread nD τ).loc b)
        (fun b => StableHlo.after ops (exitVal (cfg).spec wo c (V₀ c) ((dats p c).arrAt wo (cfg).N)) (Proc.devRef .tc b)) s')
      isplitl [HU] <;> iassumption)
    (hQ := fun s h c => ⟨(h c).1, fun b hb => (h c).2.2 b (by
      unfold restRefsP
      rw [show (Finset.univ : Finset (Fin 0)).image (Prefetch.none (sig := sig)).ref = ∅ from rfl, Finset.sdiff_empty]
      exact hb)⟩)

end Frame

end SharedArrays

end Pipeline

end Idealize.ShloMosaic

end
-- ==== Proof.KernelIdealFrame.lean ====
/-
  The frame run of this program, at any float instance: @main runs its host lines, the one kernel region over its 64 grid
  points, and the four host lines after it; every execution terminates without a fault, the result column holds at each
  block of 128 rows what the kernel body computes from the blocks it was handed, and every buffer the region does not
  stage ends at what the host lines made of it.

  The kernel is handed the normalised rows twice: a 128-row block that moves with the grid point, and the whole array,
  resident. The two input windows therefore read ONE array, whose full share is divided between them at the region's
  entry; the labels likewise come as a moving 128×1 block and as one resident 1×8192 row, but of two different arrays.
  What the body leaves in the output block is its one store's payload over the four input blocks; what it finds in each
  input's buffer is that window's block at the point, fetched there or not.
-/
import proofs.«122973_j28690381537554_1_alg».proof.Proof.Gen.KernelIdeal.Launch
import proofs.«122973_j28690381537554_1_alg».proof.Proof.Gen.KernelIdeal.Skeleton
import proofs.«122973_j28690381537554_1_alg».proof.Proof.Gen.KernelIdeal.Points
import proofs.«122973_j28690381537554_1_alg».proof.Proof.LibSharedArrays
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline.SharedArrays

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the twelve host lines before it. -/
abbrev V0 (c : Dev nD) : Valuation τ sig (Elt F) := StableHlo.after (List.flatten [hostOps0, hostOps0_1]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the four later lines, at the contents after the earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1] (by simp only [List.Forall]; exact ⟨hostOps0_sub, hostOps0_1_sub⟩)
    (by simp only [List.Forall]; exact ⟨hostOps0_fresh, hostOps0_1_fresh⟩) main_chain

/-! ## The lines after the region: the mean of the result column -/

/-- A buffer the region does not stage is one the later lines may touch; -/
theorem mem_tail_rest (b : Ref sig .tc) (hs : b.isScoped = false) (h : ∀ w, Pipeline.arrRef spec0 w ≠ b) :
    Proc.devRef (τ := τ) .tc b ∈ tailRefs1 (τ := τ) sig spec0 4 :=
  Finset.mem_map.mpr ⟨b, Finset.mem_insert_of_mem (Pipeline.mem_restRefs_of b hs h), rfl⟩
/-- so is the result column, the output window's array. -/
theorem mem_tail_out : Proc.devRef (τ := τ) .tc main_v7 ∈ tailRefs1 (τ := τ) sig spec0 4 :=
  Finset.mem_map.mpr ⟨main_v7, Finset.mem_insert_self _ _, rfl⟩

/-- The four lines touch the result column and buffers the region does not stage only. -/
theorem sfx_sub : ∀ op ∈ (hostOps1 : List (HloOp τ sig (Elt F))), op.bufs ⊆ tailRefs1 sig spec0 4 := by
  intro op hop
  simp only [hostOps1, List.mem_cons, List.mem_nil_iff, or_false] at hop
  rcases hop with rfl | rfl | rfl | rfl
  · rw [StableHlo.nullary_bufs]
    exact Finset.singleton_subset_iff.mpr (mem_tail_rest main_cst_0 (by decide) (by decide))
  · rw [StableHlo.binary_bufs]
    intro b hb
    simp only [Finset.mem_insert, Finset.mem_singleton] at hb
    rcases hb with rfl | rfl | rfl
    · exact mem_tail_out
    · exact mem_tail_rest main_cst_0 (by decide) (by decide)
    · exact mem_tail_rest main_v8 (by decide) (by decide)
  · rw [StableHlo.nullary_bufs]
    exact Finset.singleton_subset_iff.mpr (mem_tail_rest main_cst_1 (by decide) (by decide))
  · rw [StableHlo.binary_bufs]
    intro b hb
    simp only [Finset.mem_insert, Finset.mem_singleton] at hb
    rcases hb with rfl | rfl | rfl
    · exact mem_tail_rest main_v8 (by decide) (by decide)
    · exact mem_tail_rest main_cst_1 (by decide) (by decide)
    · exact mem_tail_rest main_v9 (by decide) (by decide)
/-- They allocate nothing. -/
theorem sfx_fresh : ∀ op ∈ (hostOps1 : List (HloOp τ sig (Elt F))), op.fresh = ∅ :=
  fun op hop => (List.forall_iff_forall_mem.mp hostOps1_fresh) op hop
/-- And none writes the result column. -/
theorem sfx_keeps : ∀ op ∈ (hostOps1 : List (HloOp τ sig (Elt F))), Proc.devRef .tc (Pipeline.arrRef spec0 4) ∉ op.writes := by
  intro op hop
  simp only [hostOps1, List.mem_cons, List.mem_nil_iff, or_false] at hop
  rcases hop with rfl | rfl | rfl | rfl <;>
    simp only [StableHlo.nullary_writes, StableHlo.binary_writes, Finset.mem_singleton] <;>
    exact StableHlo.devRef_ne_of_ne (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each input window's current staging buffer holds its block at every point, fetched there or not, for any proof data
    whose array is the entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses, and what it leaves in the output block -/

abbrev rRow : Rect S128x128 := Rect.unit (s := S128x128) ![0, 0] S128x128.size inb_S128x128_S128x128_0_0
abbrev rAll : Rect S8192x128 := Rect.unit (s := S8192x128) ![0, 0] S8192x128.size inb_S8192x128_S8192x128_0_0
abbrev rCol : Rect S128x1 := Rect.unit (s := S128x1) ![0, 0] S128x1.size inb_S128x1_S128x1_0_0
abbrev rLab : Rect S1x8192 := Rect.unit (s := S1x8192) ![0, 0] S1x8192.size inb_S1x8192_S1x8192_0_0

/-- The output block after the body at grid coordinates `i`, from the four input blocks: its one store, the 128 row losses. -/
def outBlk (i : grid0.Coords) (x0 : Vec F S128x128 .f32) (x1 : Vec F S8192x128 .f32) (x2 : Vec F S128x1 .i32) (x3 : Vec F S1x8192 .i32) :
    Vec F S128x1 .f32 :=
  View.canon [⟨rCol, k0_pay1 i (View.ld x0 rRow) (View.ld x1 rAll) (View.ld x2 rCol) (View.ld x3 rLab)⟩]

/-- The store fills the block. -/
theorem coverOut (p0 : Vec F S128x1 .f32) (y : S128x1.Idx) :
    ∃ pc ∈ ([⟨rCol, p0⟩] : List (View.Piece (Elt F) S128x1 .f32)), y ∈ pc.1.set :=
  View.cover_of_tiled [⟨rCol, p0⟩] S128x1.size (by rfl) y

/-! ## The body's triple -/

set_option maxHeartbeats 1000000 in
/-- The kernel body on whole staging memrefs, the inputs' at read contents `x0 … x3` and the output's at anything, runs to
    the continuation holding the inputs' as they were and the output's at `outBlk` of the inputs'. -/
theorem sound_kernel (c : Dev nD) (E : Set ℕ) (i : grid0.Coords)
    (arg1 : Memref sig .tc .vmem S128x128 .f32) (harg1 : arg1.IsWhole) (arg2 : Memref sig .tc .vmem S8192x128 .f32) (harg2 : arg2.IsWhole)
    (arg3 : Memref sig .tc .vmem S128x1 .i32) (harg3 : arg3.IsWhole) (arg4 : Memref sig .tc .vmem S1x8192 .i32) (harg4 : arg4.IsWhole)
    (arg5 : Memref sig .tc .vmem S128x1 .f32) (harg5 : arg5.IsWhole)
    (x0 : Vec F S128x128 .f32) (x1 : Vec F S8192x128 .f32) (x2 : Vec F S128x1 .i32) (x3 : Vec F S1x8192 .i32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (outBlk i x0 x1 x2 x3)) -∗ K ⟨⟩))
      ⊢ wp frame (wpE (defs₀ (F := F)) Variants.none c none) E (cc0__nt_xent_kernel i arg1 harg1 arg2 harg2 arg3 harg3 arg4 harg4 arg5 harg5) K := by
  simp only [cc0__nt_xent_kernel_eq_skeleton]; unfold cc0__nt_xent_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverOut _)

/-! ## The pipeline's proof data -/

/-- The proof data of the pipeline on core `c`: the arrays as the region finds them; after the body at point `t` each input's
    buffer at its block and the output's at `outBlk` of the input blocks; the class's invariant; nothing owed; the rows'
    array divided between its two windows, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk (grid0.coords t) (iblk m c 0 t) (iblk m c 1 t) (iblk m c 2 t) (iblk m c 3 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = outBlk (grid0.coords t) (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

end Cert.KernelIdeal.Fr

end
-- ==== Proof.KernelIdealRun.lean ====
/-
  The launch of this program's one region and what the run ends with, at any float instance. The region's five windows stand
  on four arrays: at its entry the full share of the normalised rows' array is divided between the window that moves with the
  grid point and the resident one, and the run is the one-region frame run for windows that share an array. The frame
  follows: nothing the program runs writes either argument.
-/
import proofs.«122973_j28690381537554_1_alg».proof.Proof.KernelIdealFrame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline.SharedArrays

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry: the rows' array divided between its two windows -/

/-- The proof data's arrays, window by window: the rows' array held by its two windows at the two halves of the full share,
    every other array whole. -/
theorem arrays_chain (c : Dev nD) (G : (w : Fin cfg0.W) → Buf (Elt F) ((cfg0.win w).arr.view.loc (c.tc : Thread nD τ))) :
    ((dats m 0 c).arrays G : sProp 𝕄)
      = iprop((((c.tc : Thread nD τ).loc main_v4) ↦{fullShare.left} G 0) ∗ (((c.tc : Thread nD τ).loc main_v4) ↦{fullShare.right} G 1)
          ∗ (((c.tc : Thread nD τ).loc main_v5) ↦{fullShare} G 2) ∗ (((c.tc : Thread nD τ).loc main_v6) ↦{fullShare} G 3)
          ∗ (((c.tc : Thread nD τ).loc main_v7) ↦{fullShare} G 4)) := by
  unfold Dat.arrays
  rw [bigSep_W0]
  rw [(arr_whole0 0).set_eq_univ, (arr_whole0 2).set_eq_univ, (arr_whole0 3).set_eq_univ, (arr_whole0 4).set_eq_univ]
  rfl

/-- The four buffers behind the five windows, each whole at the entry contents, make the arrays at entry: the full share
    of the rows' array is the composite of its two halves. -/
theorem hsplit (c : Dev nD) : (Pipeline.arrBufs spec0 c (V m c) : sProp 𝕄) ⊢ (dats m 0 c).arrays ((dats m 0 c).arrAt · 0) := by
  have e : (Pipeline.arrBufs spec0 c (V m c) : sProp 𝕄)
      = iprop((((c.tc : Thread nD τ).loc main_v4) ↦{fullShare} V m c main_v4) ∗ (((c.tc : Thread nD τ).loc main_v5) ↦{fullShare} V m c main_v5)
          ∗ (((c.tc : Thread nD τ).loc main_v6) ↦{fullShare} V m c main_v6) ∗ (((c.tc : Thread nD τ).loc main_v7) ↦{fullShare} V m c main_v7)) := by
    unfold Pipeline.arrBufs
    rw [show Finset.univ.image (Pipeline.arrRef spec0) = {main_v4, main_v5, main_v6, main_v7} from by decide,
      bigSep_insert (by decide), bigSep_insert (by decide), bigSep_insert (by decide), bigSep_singleton]
    rfl
  rw [arrays_chain, e]
  iintro ⟨H4, H5, H6, H7⟩
  ihave H := (pointsTo_share (PosShare.mem_left_op_right fullShare)).1 $$ H4
  icases H with ⟨Ha, Hb⟩
  isplitl [Ha]; · iexact Ha
  isplitl [Hb]; · iexact Hb
  isplitl [H5]; · iexact H5
  isplitl [H6]; · iexact H6
  iexact H7

/-! ## The run -/

/-- At the compiled mesh, for any values, from any memory with zero counters: every weakly fair execution of @main
    terminates, and every final state has each window's array at what the write-backs made of it and every other unscoped
    buffer at what the four later lines computed from the region's exit contents. -/
theorem run_main : θ_run defs (onTc (τ := τ) (main (F := F))) (s₀ m ρ) (Post cfgs (dats m) 0 4 (V0 m) hostOps1) :=
  θ_run_frame_around_shared cfgs (dats m) (0 : Fin 1) defs₀ Variants.none cellOf_inj winFacts₀0 block_pos0 arr_whole0 stage_whole0 m ρ main
    (fun c => (body_obligation m c).loose) (fun _ _ => rfl) 4 (fun _ => rfl) (V0 m) hostOps1 sfx_sub sfx_fresh sfx_keeps
    (hmain m Variants.none) (hsplit m) (fun _ _ => rfl)

/-- info: 'Cert.KernelIdeal.Fr.run_main' depends on axioms: [propext, Classical.choice, Quot.sound] -/
#guard_msgs in #print axioms run_main

/-! ## The arguments end as launched -/

/-- No host line, before the region or after it, writes the rows argument, and the region does not stage it. -/
theorem keep_arg0 (c : Dev nD) (A : Buf (Elt F) ((cfg0.win 4).arr.view.loc (c.tc : Thread nD τ))) :
    StableHlo.after (hostOps1 (F := F)) (exitVal spec0 4 c (V0 m c) A) (Proc.devRef .tc main_arg0) = m ((c.tc : Thread nD τ).loc main_arg0) := by
  rw [StableHlo.after_of_forall_not_mem (b := Proc.devRef .tc main_arg0) _ _ (List.forall_iff_forall_mem.mp (by
      simp only [hostOps1, List.Forall, StableHlo.nullary_writes, StableHlo.binary_writes, Finset.mem_singleton]
      repeat' apply And.intro
      all_goals exact StableHlo.devRef_ne_of_ne (by decide))),
    exitVal_of_ne spec0 4 c (V0 m c) A main_arg0 (by decide)]
  exact StableHlo.after_of_forall_not_mem (b := Proc.devRef .tc main_arg0) _ _ (List.forall_iff_forall_mem.mp (by
    simp only [hostOps0, hostOps0_1, List.flatten_cons, List.flatten_nil, List.append_nil, List.cons_append, List.nil_append, List.Forall,
      StableHlo.nullary_writes, StableHlo.unary_writes, StableHlo.binary_writes, StableHlo.reshape_writes, Finset.mem_singleton]
    repeat' apply And.intro
    all_goals exact StableHlo.devRef_ne_of_ne (by decide)))

/-- Nor the labels argument. -/
theorem keep_arg1 (c : Dev nD) (A : Buf (Elt F) ((cfg0.win 4).arr.view.loc (c.tc : Thread nD τ))) :
    StableHlo.after (hostOps1 (F := F)) (exitVal spec0 4 c (V0 m c) A) (Proc.devRef .tc main_arg1) = m ((c.tc : Thread nD τ).loc main_arg1) := by
  rw [StableHlo.after_of_forall_not_mem (b := Proc.devRef .tc main_arg1) _ _ (List.forall_iff_forall_mem.mp (by
      simp only [hostOps1, List.Forall, StableHlo.nullary_writes, StableHlo.binary_writes, Finset.mem_singleton]
      repeat' apply And.intro
      all_goals exact StableHlo.devRef_ne_of_ne (by decide))),
    exitVal_of_ne spec0 4 c (V0 m c) A main_arg1 (by decide)]
  exact StableHlo.after_of_forall_not_mem (b := Proc.devRef .tc main_arg1) _ _ (List.forall_iff_forall_mem.mp (by
    simp only [hostOps0, hostOps0_1, List.flatten_cons, List.flatten_nil, List.append_nil, List.cons_append, List.nil_append, List.Forall,
      StableHlo.nullary_writes, StableHlo.unary_writes, StableHlo.binary_writes, StableHlo.reshape_writes, Finset.mem_singleton]
    repeat' apply And.intro
    all_goals exact StableHlo.devRef_ne_of_ne (by decide)))

/-- THE FRAME: every execution terminates without a fault and the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (keep_arg0 m c _),
     ((h c).2 main_arg1 (Pipeline.mem_restRefs_of main_arg1 (by decide) (by decide))).trans (keep_arg1 m c _)⟩) (run_main m ρ)

end Cert.KernelIdeal.Fr

end
-- ==== Proof.KernelIdealBlocks.lean ====
/-
  From blocks to arrays. The grid has 64 points; point `t` works on rows `128·t … 128·t + 127`.

  The rows' window hands the body the 128×128 block of the normalised rows starting at row `128·t`; the resident window
  hands it the whole 8192×128 array of normalised rows, the same at every point. The labels come twice: as the 128×1
  block of the label column starting at row `128·t`, and as the whole 1×8192 label row; column and row are both the
  label vector recast, so an entry of either is an entry of the vector. The result column is written back in blocks of
  128 rows, block `t` at point `t`, and the blocks tile it: row `r` lies in the block of point `r / 128` at offset
  `r % 128`. So if the body's column at every point `t` holds at offset `p` the value `L (128·t + p)` of one function
  `L` of the row, the result column ends holding `L r` at every row `r`.
-/
import proofs.«122973_j28690381537554_1_alg».proof.Proof.KernelIdealFrame
import Idealize.ShloMosaic.Lib.Pipeline.Value
import Idealize.ShloMosaic.Lib.ValueIdx
import Idealize.ShloMosaic.Lib.ValueLayout

set_option maxRecDepth 16384

noncomputable section

namespace Cert.KernelIdeal.Blk

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat Cfg Window)

variable {F : FTy → Type} [FloatOps F]
variable (m : (ℓ : Loc nD τ sig) → Buf (Elt F) ℓ)

/-- A grid point is below 64. -/
theorem t_lt (t : Fin cfg0.N) : t.val < 64 := lt_of_lt_of_eq t.isLt N_0

/-- Row `p` of point `t`'s block is row `128·t + p` of the array. -/
def row (t : Fin cfg0.N) (p : Fin 128) : Fin 8192 := ⟨t.val * 128 + p.val, by have := t_lt t; omega⟩

/-- On a grid with one axis the point's coordinate is the point itself. -/
theorem coords_val : ∀ t : Fin cfg0.N, ((grid0.coords t) 0).val = t.val :=
  (by decide +kernel : ∀ t : Fin grid0.N, ((grid0.coords t) 0).val = t.val)

theorem row_val (t : Fin cfg0.N) (p : Fin 128) : (row t p).val = ((grid0.coords t) 0).val * 128 + p.val := by
  rw [coords_val]; rfl

/-- The block indices of the five windows at point `t`: the moving windows are at block `(t, 0)`, the resident ones at
    block `(0, 0)`. -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)

/-- The rows' block at point `t`: entry `(p, k)` is entry `(128·t + p, k)` of the normalised rows. -/
theorem iblk0_apply (c : Dev nD) (t : Fin cfg0.N) (p k : Fin 128) :
    iblk m c 0 t (ix2 p k) = V m c main_v4 (ix2 (row t p) k) := by
  obtain ⟨e0, e1⟩ := idx0 t
  unfold iblk
  rw [View.read_apply]
  show V m c main_v4 _ = V m c main_v4 _
  congr 1
  funext a
  apply Fin.ext
  match a with
  | ⟨0, _⟩ => show win0_0.index t (0 : Fin 2) * 128 + 1 * p.val = t.val * 128 + p.val; rw [e0]; omega
  | ⟨1, _⟩ => show win0_0.index t (1 : Fin 2) * 128 + 1 * k.val = k.val; rw [e1]; omega

/-- The resident window's block is the whole array of normalised rows, at every point. -/
theorem iblk1_eq (c : Dev nD) (t : Fin cfg0.N) : iblk m c 1 t = V m c main_v4 := by
  obtain ⟨e0, e1⟩ := idx1 t
  funext j
  unfold iblk
  rw [View.read_apply]
  show V m c main_v4 _ = V m c main_v4 j
  congr 1
  funext a
  apply Fin.ext
  match a with
  | ⟨0, _⟩ => show win0_1.index t (0 : Fin 2) * 8192 + 1 * (j 0).val = (j 0).val; rw [e0]; omega
  | ⟨1, _⟩ => show win0_1.index t (1 : Fin 2) * 128 + 1 * (j 1).val = (j 1).val; rw [e1]; omega

/-- The label column as the region finds it: the label vector recast as a column. -/
theorem V_v5 (c : Dev nD) : (V m c main_v5 : S8192x1.Idx → Elt F .i32)
    = shapeCast S8192x1 (m ((c.tc : Thread nD τ).loc main_arg1)) shapeCasts_S8192_S8192x1 := by
  dsimp only [V, V0]
  simp only [hostOps0, hostOps0_1, List.flatten_cons, List.flatten_nil, List.append_nil, List.cons_append, List.nil_append]
  after_results
  rfl

/-- The label row as the region finds it: the label vector recast as a row. -/
theorem V_v6 (c : Dev nD) : (V m c main_v6 : S1x8192.Idx → Elt F .i32)
    = shapeCast S1x8192 (m ((c.tc : Thread nD τ).loc main_arg1)) shapeCasts_S8192_S1x8192 := by
  dsimp only [V, V0]
  simp only [hostOps0, hostOps0_1, List.flatten_cons, List.flatten_nil, List.append_nil, List.cons_append, List.nil_append]
  after_results
  rfl

/-- A vector cast to a column reads, at `(i, u)`, the vector at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The label column's block at point `t`: entry `p` is the label of row `128·t + p`. -/
theorem iblk2_apply (c : Dev nD) (t : Fin cfg0.N) (p : Fin 128) :
    iblk m c 2 t (ix2 p (0 : Fin 1)) = m ((c.tc : Thread nD τ).loc main_arg1) (ix1 (row t p)) := by
  obtain ⟨e0, e1⟩ := idx2 t
  unfold iblk
  rw [View.read_apply]
  show V m c main_v5 (((cfg0.win 2).blk t).view.emb (ix2 p (0 : Fin 1))) = _
  have hi : ((cfg0.win 2).blk t).view.emb (ix2 p (0 : Fin 1)) = (ix2 (row t p) (0 : Fin 1) : S8192x1.Idx) := by
    funext a
    apply Fin.ext
    match a with
    | ⟨0, _⟩ => show win0_2.index t (0 : Fin 2) * 128 + 1 * p.val = t.val * 128 + p.val; rw [e0]; omega
    | ⟨1, _⟩ => show win0_2.index t (1 : Fin 2) * 1 + 1 * 0 = 0; rw [e1]
  refine (congrArg (V m c main_v5) hi).trans ?_
  rw [V_v5 m c]
  exact shapeCast_a_a1_apply _ _ _ _

/-- The label row, resident: entry `q` is the label of row `q`, at every point. -/
theorem iblk3_apply (c : Dev nD) (t : Fin cfg0.N) (q : Fin 8192) :
    iblk m c 3 t (ix2 (0 : Fin 1) q) = m ((c.tc : Thread nD τ).loc main_arg1) (ix1 q) := by
  obtain ⟨e0, e1⟩ := idx3 t
  unfold iblk
  rw [View.read_apply]
  show V m c main_v6 (((cfg0.win 3).blk t).view.emb (ix2 (0 : Fin 1) q)) = _
  have hi : ((cfg0.win 3).blk t).view.emb (ix2 (0 : Fin 1) q) = (ix2 (0 : Fin 1) q : S1x8192.Idx) := by
    funext a
    apply Fin.ext
    match a with
    | ⟨0, _⟩ => show win0_3.index t (0 : Fin 2) * 1 + 1 * 0 = 0; rw [e0]
    | ⟨1, _⟩ => show win0_3.index t (1 : Fin 2) * 8192 + 1 * q.val = q.val; rw [e1]; omega
  refine (congrArg (V m c main_v6) hi).trans ?_
  rw [V_v6 m c]
  exact shapeCast_a_1a_apply _ _ _ _

/-- What point `t` writes back is its block of the column `L`. -/
theorem flushed4_eq (c : Dev nD) (L : Fin 8192 → Elt F .f32)
    (H : ∀ (t : Fin cfg0.N) (p : Fin 128),
      outBlk (grid0.coords t) (iblk m c 0 t) (iblk m c 1 t) (iblk m c 2 t) (iblk m c 3 t) (ix2 p (0 : Fin 1)) = L (row t p))
    (t : Fin cfg0.N) :
    (dats m 0 c).flushed 4 t = ((cfg0.win 4).blk t).view.read (Elt F) (fun i : S8192x1.Idx => L (i 0)) := by
  obtain ⟨e0, e1⟩ := idx4 t
  show (cfg0.win 4).cut (grid0.coords t) ((dats m 0 c).after 4 t) = _
  rw [after0_4]
  funext j
  rw [View.read_apply]
  have h0 : (j 0).val < 128 := (j 0).isLt
  have h1 : (j 1).val < 1 := (j 1).isLt
  have hj : (Window.xinj (cfg0.win 4) (grid0.coords t) j : S128x1.Idx) = ix2 (⟨(j 0).val, h0⟩ : Fin 128) (0 : Fin 1) := by
    funext a
    apply Fin.ext
    match a with
    | ⟨0, _⟩ => rfl
    | ⟨1, _⟩ => show (j 1).val = 0; omega
  show outBlk (grid0.coords t) (iblk m c 0 t) (iblk m c 1 t) (iblk m c 2 t) (iblk m c 3 t) (Window.xinj (cfg0.win 4) (grid0.coords t) j)
    = L ((((cfg0.win 4).blk t).view.emb j) 0)
  refine (congrArg (outBlk (grid0.coords t) (iblk m c 0 t) (iblk m c 1 t) (iblk m c 2 t) (iblk m c 3 t)) hj).trans ?_
  refine (H t ⟨(j 0).val, h0⟩).trans ?_
  refine congrArg L (Fin.ext ?_)
  show t.val * 128 + (j 0).val = win0_4.index t (0 : Fin 2) * 128 + 1 * (j 0).val
  rw [e0]; omega

/-- An index of the column is in point `t`'s block iff each coordinate is in the block's range on its axis. -/
theorem mem_blk4 (t : Fin cfg0.N) (i : S8192x1.Idx) :
    i ∈ ((cfg0.win 4).blk t).view.set ↔ ∀ a : Fin 2, win0_4.index t a * S128x1.size a ≤ (i a).val ∧ (i a).val < win0_4.index t a * S128x1.size a + S128x1.size a := by
  show i ∈ ((View.whole main_v7).slice (win0_4.rect t)).set ↔ _
  rw [View.set_slice_whole, Rect.mem_set_unit]
  exact Iff.rfl

/-- The result column after the last point: if every point's column holds `L` of its rows, the array holds `L` of every
    row — row `r` is offset `r % 128` of the block of point `r / 128`. -/
theorem col_final (c : Dev nD) (L : Fin 8192 → Elt F .f32)
    (H : ∀ (t : Fin cfg0.N) (p : Fin 128),
      outBlk (grid0.coords t) (iblk m c 0 t) (iblk m c 1 t) (iblk m c 2 t) (iblk m c 3 t) (ix2 p (0 : Fin 1)) = L (row t p))
    (r : Fin 8192) : (dats m 0 c).arrAt 4 cfg0.N (ix2 r (0 : Fin 1)) = L r := by
  have hr : r.val < 8192 := r.isLt
  have ht : r.val / 128 < cfg0.N := lt_of_lt_of_eq (by omega) N_0.symm
  obtain ⟨e0, e1⟩ := idx4 ⟨r.val / 128, ht⟩
  have hmem : (ix2 r (0 : Fin 1) : S8192x1.Idx) ∈ ((cfg0.win 4).blk ⟨r.val / 128, ht⟩).view.set := by
    rw [mem_blk4]
    intro a
    match a with
    | ⟨0, _⟩ =>
      show win0_4.index ⟨r.val / 128, ht⟩ (0 : Fin 2) * 128 ≤ r.val ∧ r.val < win0_4.index ⟨r.val / 128, ht⟩ (0 : Fin 2) * 128 + 128
      rw [e0]
      show r.val / 128 * 128 ≤ r.val ∧ r.val < r.val / 128 * 128 + 128
      omega
    | ⟨1, _⟩ =>
      show win0_4.index ⟨r.val / 128, ht⟩ (1 : Fin 2) * 1 ≤ 0 ∧ 0 < win0_4.index ⟨r.val / 128, ht⟩ (1 : Fin 2) * 1 + 1
      rw [e1]
      omega
  exact (dats m 0 c).arrAt_apply_of_mem 4 (fun i : S8192x1.Idx => L (i 0)) (fun t _ => flushed4_eq m c L H t)
    cfg0.N ⟨r.val / 128, ht⟩ (ix2 r (0 : Fin 1)) ht (flush0_4 _) hmem

end Cert.KernelIdeal.Blk

end
-- ==== Proof.Spec.lean ====
/-
  The mathematics both programs compute, as one function of the normalised rows and the labels.

  From rows `zn : 8192 × 128` (each row of the input divided by the larger of its Euclidean norm and a floor) and
  integer labels `lab : 8192`:
    sim r q   = (∑ k, zn r k · zn q k) · 2                 -- cosine similarity over temperature 1/2
    mask r q  = 1 if lab r = lab q and r ≠ q, else 0         -- same label, off the diagonal
    pos r     = ∑ q, sim r q · mask r q
    neg r     = ∑ q, sim r q · (1 − mask r q)
    loss r    = −log (pos r / (pos r + neg r))
    result    = (∑ r, loss r) / 8192
  over the extended reals, with the division and the logarithm of the ideal instance.
-/
import Idealize.ShloMosaic.Lib.ValueIdx
import Idealize.ShloMosaic.PureOps.Ideal

noncomputable section

namespace Cert.Spec

open Idealize.ShloMosaic Idealize.ShloMosaic.ValueIdx

/-- The rows' shape, the labels' shape. -/
abbrev SZ : Shape := ⟨2, ![8192, 128]⟩
abbrev SLab : Shape := ⟨1, ![8192]⟩

/-- The scaled similarity of rows `r` and `q`. -/
def sim (zn : SZ.Idx → EReal) (r q : Fin 8192) : EReal :=
  (∑ k : Fin 128, zn (ix2 r k) * zn (ix2 q k)) * 2

/-- One where the two rows carry the same label and are different rows, zero elsewhere. -/
def mask (lab : SLab.Idx → BitVec 32) (r q : Fin 8192) : EReal :=
  if lab (ix1 r) = lab (ix1 q) ∧ r ≠ q then 1 else 0

/-- The similarity summed over the row's positives. -/
def pos (zn : SZ.Idx → EReal) (lab : SLab.Idx → BitVec 32) (r : Fin 8192) : EReal :=
  ∑ q : Fin 8192, sim zn r q * mask lab r q

/-- The similarity summed over everything else in the row (the diagonal included). -/
def neg (zn : SZ.Idx → EReal) (lab : SLab.Idx → BitVec 32) (r : Fin 8192) : EReal :=
  ∑ q : Fin 8192, sim zn r q * (1 - mask lab r q)

/-- The row's loss. -/
def loss (zn : SZ.Idx → EReal) (lab : SLab.Idx → BitVec 32) (r : Fin 8192) : EReal :=
  -(Ideal.log (Ideal.div (pos zn lab r) (pos zn lab r + neg zn lab r)))

/-- The mean of the rows' losses. -/
def meanLoss (zn : SZ.Idx → EReal) (lab : SLab.Idx → BitVec 32) : EReal :=
  Ideal.div (∑ r : Fin 8192, loss zn lab r) ((8192 : ℝ) : EReal)

end Cert.Spec

end
-- ==== Proof.KernelIdealTail.lean ====
/-
  The four host lines after the kernel region, read at the ideal values: from the region's exit contents, the result
  column at `A` and every other buffer as the region found it, the program's result is the sum of the column's 8192
  entries divided by 8192; and the two arguments end as they were launched, no line of @main writing them.
-/
import proofs.«122973_j28690381537554_1_alg».proof.Proof.KernelIdealFrame
import proofs.«122973_j28690381537554_1_alg».proof.Proof.Spec
import Idealize.ShloMosaic.PureOps.Ideal.Laws
import Idealize.ShloMosaic.Lib.StableHlo.Run
import Idealize.ShloMosaic.Lib.ValueIdx

set_option maxRecDepth 16384

noncomputable section

namespace Cert.KernelIdeal.Tail

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline.SharedArrays

section Value

variable (m : (ℓ : Loc nD τ sig) → Buf (Elt Ideal) ℓ)

/-- The word `0x46000000` is 8192. -/
theorem word_8192 : Ideal.ofBits .f32 0x46000000#32 = ((8192 : ℝ) : EReal) := by
  simp [Ideal.ofBits, Ideal.ieee, -EReal.coe_mul]; norm_num

/-- A sum over the indices of an `n × 1` column is the sum over its rows. -/
theorem sum_col {n : Nat} (f : (⟨2, ![n, 1]⟩ : Shape).Idx → EReal) : ∑ j, f j = ∑ r : Fin n, f (ix2 r 0) := by
  rw [sum_idx2]
  exact Finset.sum_congr rfl fun r _ => Fin.sum_univ_one _

/-- The program's result, from the region's exit contents with the result column at `A`: the sum of the column's 8192 entries
    (zero plus the total over a shape whose second axis has one coordinate) divided by 8192. -/
theorem tail_value (c : Dev nD) (A : Buf (Elt Ideal) ((cfg0.win 4).arr.view.loc (c.tc : Thread nD τ))) (i : S_.Idx) :
    StableHlo.after (hostOps1 (F := Ideal)) (exitVal spec0 4 c (V0 m c) A) (Proc.devRef .tc main_v9) i
      = Ideal.div (∑ r : Fin 8192, A (ix2 r 0)) ((8192 : ℝ) : EReal) := by
  have hA : exitVal spec0 4 c (V0 m c) A (Proc.devRef .tc main_v7) = A := exitVal_arr spec0 4 c (V0 m c) A
  after_results
  rw [hA]
  show FloatOps.hostDivf (Host.reduceAdd (F := Ideal) (s := S8192x1) (φ := .f32) A (constant S_ .f32 0x00000000#32) reducesTo_S8192x1_S_d0_1 h_S_ i)
      (FloatOps.ofBits .f32 0x46000000#32) = _
  rw [Ideal.hostDivf_def, Ideal.ofBits_def, word_8192]
  congr 1
  simp only [Host.reduceAdd, Ideal.hostReduceAdd_def]
  rw [Ideal.hostReduceAdd_total reducesTo_S8192x1_S_d0_1 (fun b => b.elim0) _ _ i]
  have key : ∀ B : S8192x1.Idx → EReal,
      FloatOps.ofBits (F := Ideal) .f32 0x00000000#32 + ∑ j : S8192x1.Idx, B j = ∑ r : Fin 8192, B (ix2 r 0) := fun B => by
    rw [Ideal.ofBits_def, Ideal.ofBits_zero_f32, zero_add]
    exact sum_col (n := 8192) B
  exact key A

end Value

section Args

variable {F : FTy → Type} [FloatOps F] (m : (ℓ : Loc nD τ sig) → Buf (Elt F) ℓ)

/-- A buffer that is neither the result column nor written by any host line of @main ends as it was launched. -/
theorem tail_unwritten (r : Ref sig .tc) (h7 : r ≠ main_v7)
    (hpre : ∀ op ∈ (List.flatten [hostOps0, hostOps0_1] : List (HloOp τ sig (Elt F))), Proc.devRef .tc r ∉ op.writes)
    (hpost : ∀ op ∈ (hostOps1 : List (HloOp τ sig (Elt F))), Proc.devRef .tc r ∉ op.writes)
    (c : Dev nD) (A : Buf (Elt F) ((cfg0.win 4).arr.view.loc (c.tc : Thread nD τ))) :
    StableHlo.after (hostOps1 (F := F)) (exitVal spec0 4 c (V0 m c) A) (Proc.devRef .tc r) = m ((c.tc : Thread nD τ).loc r) := by
  rw [StableHlo.after_of_forall_not_mem _ _ hpost, exitVal_of_ne spec0 4 c (V0 m c) A r h7]
  show StableHlo.after (List.flatten [hostOps0, hostOps0_1]) (fun b => m (c, b)) (Proc.devRef .tc r) = _
  rw [StableHlo.after_of_forall_not_mem _ _ hpre]

/-- The first argument ends as it was launched. -/
theorem tail_arg0 (c : Dev nD) (A : Buf (Elt F) ((cfg0.win 4).arr.view.loc (c.tc : Thread nD τ))) :
    StableHlo.after (hostOps1 (F := F)) (exitVal spec0 4 c (V0 m c) A) (Proc.devRef .tc main_arg0) = m ((c.tc : Thread nD τ).loc main_arg0) :=
  tail_unwritten m main_arg0 (by decide)
    (List.forall_iff_forall_mem.mp (by
      simp only [hostOps0, hostOps0_1, List.flatten_cons, List.flatten_nil, List.append_nil, List.cons_append, List.nil_append, List.Forall,
        StableHlo.nullary_writes, StableHlo.unary_writes, StableHlo.binary_writes, StableHlo.reshape_writes, Finset.mem_singleton]
      repeat' apply And.intro
      all_goals exact StableHlo.devRef_ne_of_ne (by decide)))
    (List.forall_iff_forall_mem.mp (by
      simp only [hostOps1, List.Forall, StableHlo.nullary_writes, StableHlo.binary_writes, Finset.mem_singleton]
      repeat' apply And.intro
      all_goals exact StableHlo.devRef_ne_of_ne (by decide)))
    c A

/-- The second argument ends as it was launched. -/
theorem tail_arg1 (c : Dev nD) (A : Buf (Elt F) ((cfg0.win 4).arr.view.loc (c.tc : Thread nD τ))) :
    StableHlo.after (hostOps1 (F := F)) (exitVal spec0 4 c (V0 m c) A) (Proc.devRef .tc main_arg1) = m ((c.tc : Thread nD τ).loc main_arg1) :=
  tail_unwritten m main_arg1 (by decide)
    (List.forall_iff_forall_mem.mp (by
      simp only [hostOps0, hostOps0_1, List.flatten_cons, List.flatten_nil, List.append_nil, List.cons_append, List.nil_append, List.Forall,
        StableHlo.nullary_writes, StableHlo.unary_writes, StableHlo.binary_writes, StableHlo.reshape_writes, Finset.mem_singleton]
      repeat' apply And.intro
      all_goals exact StableHlo.devRef_ne_of_ne (by decide)))
    (List.forall_iff_forall_mem.mp (by
      simp only [hostOps1, List.Forall, StableHlo.nullary_writes, StableHlo.binary_writes, Finset.mem_singleton]
      repeat' apply And.intro
      all_goals exact StableHlo.devRef_ne_of_ne (by decide)))
    c A

end Args

end Cert.KernelIdeal.Tail

end
-- ==== Proof.LibPlainDot.lean ====
/-
  The plain matrix product read at an entry.

  For the dimension numbers of an `M×K` by `K×N` product (`DotDims.plain M K N`: contract the left operand's
  axis 1 with the right operand's axis 0, no batch axis) the result's entry `(p, q)` is, over the extended reals,
  `∑ k : Fin K, lhs (p, k) * rhs (k, q)`: for a `tpu.matmul` into the zero accumulator and for the host's
  `dot_general` alike. The sum over the product's own one-axis contraction index is re-indexed through
  `ValueIdx.contrEquiv1` to a sum over `Fin K`, and the two operand indices are computed once, for every
  `M`, `K`, `N`.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The contraction index of the plain product is its one coordinate, a number below `K`. -/
abbrev kEquiv (M K N : Nat) : (DotDims.plain M K N).contr.Idx ≃ Fin K :=
  contrEquiv1 (DotDims.plain M K N) K rfl rfl

/-- The left operand's row coordinate is the result's row. -/
theorem lhs_axis0 (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

/-- The left operand's column coordinate is the contraction position. -/
theorem lhs_axis1 (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row coordinate is the contraction position. -/
theorem rhs_axis0 (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column coordinate is the result's column. -/
theorem rhs_axis1 (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- At result entry `(p, q)` and contraction position `k` the left operand is read at `(p, k)`. -/
theorem lhsIdx_eq (p : Fin M) (q : Fin N) (k : Fin K) :
    (DotDims.plain M K N).lhsIdx (ix2 p q) ((kEquiv M K N).symm k) = ix2 p k := by
  have hk := contrEquiv1_symm_val (DotDims.plain M K N) K rfl rfl k
  exact funext fun a => Fin.ext (by
    match a with
    | ⟨0, _⟩ => exact lhs_axis0 _ _
    | ⟨1, _⟩ => exact (lhs_axis1 _ _).trans hk)

/-- At result entry `(p, q)` and contraction position `k` the right operand is read at `(k, q)`. -/
theorem rhsIdx_eq (p : Fin M) (q : Fin N) (k : Fin K) :
    (DotDims.plain M K N).rhsIdx (ix2 p q) ((kEquiv M K N).symm k) = ix2 k q := by
  have hk := contrEquiv1_symm_val (DotDims.plain M K N) K rfl rfl k
  exact funext fun a => Fin.ext (by
    match a with
    | ⟨0, _⟩ => exact (rhs_axis0 _ _).trans hk
    | ⟨1, _⟩ => exact rhs_axis1 _ _)

/-- The sum over the product's contraction index, as a sum over `Fin K` of the operands' entries. -/
theorem sum_contr {φ₁ φ₂ : FTy} (lhs : FVec Ideal ⟨2, ![M, K]⟩ φ₁) (rhs : FVec Ideal ⟨2, ![K, N]⟩ φ₂) (p : Fin M) (q : Fin N) :
    (∑ c : (DotDims.plain M K N).contr.Idx,
        lhs ((DotDims.plain M K N).lhsIdx (ix2 p q) c) * rhs ((DotDims.plain M K N).rhsIdx (ix2 p q) c) : EReal)
      = ∑ k : Fin K, lhs (ix2 p k) * rhs (ix2 k q) := by
  rw [← Equiv.sum_comp (kEquiv M K N).symm]
  refine Finset.sum_congr rfl fun k _ => ?_
  rw [lhsIdx_eq, rhsIdx_eq]

/-- A `tpu.matmul` with the plain dimension numbers into the zero accumulator, at entry `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general` with the plain dimension numbers, at entry `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.Lib.PlainDot

end
-- ==== Proof.RowLoss.lean ====
/-
  The row block's payload read at a row: the loss of that row.

  The kernel body, at grid point i, computes from its 128 rows of zn, the whole zn and the labels a 128×1 column; its entry at
  (p, 0) is the loss of row (i 0)·128 + p: the similarities of that row to every row (a plain matrix product against the
  transposed zn, times 2), the mask (same label, another row) as a comparison of label words and of row numbers, the two
  masked sums over the 8192 columns, and −log (pos / (pos + neg)).
-/
import proofs.«122973_j28690381537554_1_alg».proof.Proof.Gen.KernelIdeal.Skeleton
import proofs.«122973_j28690381537554_1_alg».proof.Proof.Spec
import proofs.«122973_j28690381537554_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.KernelIdeal.RowValue

open Cert.KernelIdeal Cert.KernelIdeal.Gen Idealize.ShloMosaic Idealize.ShloMosaic.ValueIdx

/-! ## Layout operations at coordinates -/

/-- A vector [a] viewed as the column [a, 1] reads its entry. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The payload's parts -/

/-- The similarities of the block's rows to every row: the product against the transposed rows, doubled. -/
def simV (v0 : Vec Ideal S128x128 .f32) (zn : Vec Ideal S8192x128 .f32) : FVec Ideal S128x8192 .f32 :=
  mulf (matmul (φ₁ := .f32) (φ₂ := .f32) dot_S128x128_S128x8192_S128x8192_1_0_0_1_n_n none
      (shapeCast S128x128 v0 shapeCasts_S128x128_S128x128)
      (transpose S128x8192 [1, 0] (shapeCast S8192x128 zn shapeCasts_S8192x128_S8192x128) transposes_S8192x128_p1_0_S128x8192)
      (constant S128x8192 .f32 0x00000000#32))
    (broadcast S128x8192 (Scalar.ofBits .f32 0x40000000#32))

/-- The mask as the kernel computes it: labels equal and row number different, widened and converted. -/
def maskV (i : grid0.Coords) (v8 : Vec Ideal S128x1 .i32) (v10 : Vec Ideal S1x8192 .i32) : FVec Ideal S128x8192 .f32 :=
  sitofp .f32 (extui 32
    (andi
      (cmpi .eq (broadcastTo S128x8192 (shapeCast S128x1 v8 shapeCasts_S128x1_S128x1) broadcasts_S128x1_S128x8192)
        (broadcastTo S128x8192 (shapeCast S1x8192 v10 shapeCasts_S1x8192_S1x8192) broadcasts_S1x8192_S128x8192))
      (xori
        (cmpi .eq
          (addi (broadcast S128x8192 (Scalar.muli (BitVec.ofNat 32 (i 0).val) 128#32)) (iota .tc S128x8192 32 [0] iota_S128x8192_d0_w32))
          (iota .tc S128x8192 32 [1] iota_S128x8192_d1_w32))
        (constantI S128x8192 1 1#1)))
    natLt_1_32)

/-- A lane sum kept as a column. -/
def rowSum (x : FVec Ideal S128x8192 .f32) : FVec Ideal S128x1 .f32 :=
  shapeCast S128x1 (multiReduction .add [1] S128 x 0x00000000#32 reduces_S128x8192_S128 (.inl rfl) rfl) shapeCasts_S128_S128x1

/-- The payload is these parts put together. -/
theorem pay_eq (i : grid0.Coords) (v0 : Vec Ideal S128x128 .f32) (zn : Vec Ideal S8192x128 .f32)
    (v8 : Vec Ideal S128x1 .i32) (v10 : Vec Ideal S1x8192 .i32) :
    k0_pay1 (F := Ideal) i v0 zn v8 v10
      = subf (broadcast S128x1 (Scalar.ofBits (F := Ideal) .f32 0x00000000#32))
          (log (divf (rowSum (mulf (simV v0 zn) (maskV i v8 v10)))
            (addf (rowSum (mulf (simV v0 zn) (maskV i v8 v10)))
              (rowSum (mulf (simV v0 zn)
                (subf (broadcast S128x8192 (Scalar.ofBits (F := Ideal) .f32 0x3F800000#32)) (maskV i v8 v10))))))) := rfl

/-! ## Literals -/

/-- The word 0x40000000 is the real 2. -/
theorem ofBits_two_f32 : Ideal.ofBits .f32 0x40000000#32 = 2 := by
  rw [show (2 : EReal) = ((2 : ℝ) : EReal) by norm_cast]
  simp [Ideal.ofBits, Ideal.ieee, -EReal.coe_mul]; norm_num

/-! ## The similarities at an entry -/

/-- The product's dimension numbers are the plain ones. -/
theorem dot_eq_plain : dot_S128x128_S128x8192_S128x8192_1_0_0_1_n_n = DotDims.plain 128 128 8192 := rfl

/-- Entry (p, q) of the similarities: the block's row p against row q of the whole, doubled. -/
theorem simV_apply (v0 : Vec Ideal S128x128 .f32) (zn : Vec Ideal S8192x128 .f32) (p : Fin 128) (q : Fin 8192) :
    simV v0 zn (ix2 p q) = (∑ k : Fin 128, v0 (ix2 p k) * zn (ix2 q k)) * 2 := by
  unfold simV
  rw [mulf_apply, broadcast_apply]
  show FloatOps.matmul dot_S128x128_S128x8192_S128x8192_1_0_0_1_n_n none _ _ _ (ix2 p q) * Ideal.ofBits .f32 0x40000000#32 = _
  rw [ofBits_two_f32, dot_eq_plain, Cert.Lib.PlainDot.matmul_zero_apply]
  congr 1
  refine Finset.sum_congr rfl fun k _ => ?_
  rw [shapeCast_self, transpose_ix2_apply, shapeCast_self]

/-! ## The mask at an entry -/

/-- A comparison of equal words is the bit 1 … -/
theorem cmpi_eq_one {a b : BitVec 32} (h : a = b) : IntOp.cmpi .eq a b = 1#1 := by
  subst h; simp [IntOp.cmpi]

/-- … and of different words the bit 0. -/
theorem cmpi_eq_zero {a b : BitVec 32} (h : a ≠ b) : IntOp.cmpi .eq a b = 0#1 := by
  have hb : (a == b) = false := beq_eq_false_iff_ne.mpr h
  simp [IntOp.cmpi, hb]

/-- The four cases of the mask's bit, widened and read as a signed integer. -/
theorem maskBits :
    ((IntOp.andi 1#1 (IntOp.xori 0#1 1#1)).setWidth 32).toInt = 1
      ∧ ((IntOp.andi 1#1 (IntOp.xori 1#1 1#1)).setWidth 32).toInt = 0
      ∧ ((IntOp.andi 0#1 (IntOp.xori 0#1 1#1)).setWidth 32).toInt = 0
      ∧ ((IntOp.andi 0#1 (IntOp.xori 1#1 1#1)).setWidth 32).toInt = 0 := by
  decide

/-- The mask's word arithmetic: "labels equal and row numbers different", widened and converted, is 1 or 0. -/
theorem maskWord (a b r q : BitVec 32) :
    (FloatOps.sitofp (F := Ideal) .f32
        ((IntOp.andi (IntOp.cmpi .eq a b) (IntOp.xori (IntOp.cmpi .eq r q) 1#1)).setWidth 32) : EReal)
      = if a = b ∧ r ≠ q then 1 else 0 := by
  show (((((IntOp.andi (IntOp.cmpi .eq a b) (IntOp.xori (IntOp.cmpi .eq r q) 1#1)).setWidth 32).toInt : ℝ)) : EReal) = _
  obtain ⟨h10, h11, h00, h01⟩ := maskBits
  by_cases hab : a = b <;> by_cases hrq : r = q
  · rw [cmpi_eq_one hab, cmpi_eq_one hrq, h11, if_neg (fun h => h.2 hrq)]; norm_cast
  · rw [cmpi_eq_one hab, cmpi_eq_zero hrq, h10, if_pos ⟨hab, hrq⟩]; norm_cast
  · rw [cmpi_eq_zero hab, cmpi_eq_one hrq, h01, if_neg (fun h => hab h.1)]; norm_cast
  · rw [cmpi_eq_zero hab, cmpi_eq_zero hrq, h00, if_neg (fun h => hab h.1)]; norm_cast

/-- The row number's word: no wrap below 2^32. -/
theorem rowWord_eq_iff (g p q : ℕ) (hgp : g * 128 + p < 8192) (hq : q < 8192) :
    IntOp.addi (Scalar.muli (BitVec.ofNat 32 g) 128#32) (BitVec.ofNat 32 p) = BitVec.ofNat 32 q ↔ g * 128 + p = q := by
  unfold IntOp.addi Scalar.muli IntOp.muli
  rw [← BitVec.toNat_inj]
  simp only [BitVec.toNat_add, BitVec.toNat_mul, BitVec.toNat_ofNat]
  omega

/-- Entry (p, q) of the kernel's mask. -/
theorem maskV_apply (i : grid0.Coords) (v8 : Vec Ideal S128x1 .i32) (v10 : Vec Ideal S1x8192 .i32) (p : Fin 128) (q : Fin 8192) :
    maskV i v8 v10 (ix2 p q)
      = if v8 (ix2 p 0) = v10 (ix2 0 q)
          ∧ IntOp.addi (Scalar.muli (BitVec.ofNat 32 (i 0).val) 128#32) (BitVec.ofNat 32 p.val) ≠ BitVec.ofNat 32 q.val
        then 1 else 0 := by
  unfold maskV
  rw [sitofp_apply, extui_apply]
  show FloatOps.sitofp (F := Ideal) .f32 ((IntOp.andi (IntOp.cmpi .eq
      (broadcastTo S128x8192 (shapeCast S128x1 v8 shapeCasts_S128x1_S128x1) broadcasts_S128x1_S128x8192 (ix2 p q))
      (broadcastTo S128x8192 (shapeCast S1x8192 v10 shapeCasts_S1x8192_S1x8192) broadcasts_S1x8192_S128x8192 (ix2 p q)))
    (IntOp.xori (IntOp.cmpi .eq
      (IntOp.addi (Scalar.muli (BitVec.ofNat 32 (i 0).val) 128#32) (iota .tc S128x8192 32 [0] iota_S128x8192_d0_w32 (ix2 p q)))
      (iota .tc S128x8192 32 [1] iota_S128x8192_d1_w32 (ix2 p q))) 1#1)).setWidth 32) = _
  rw [broadcastTo_a1_ab_apply, broadcastTo_1b_ab_apply, shapeCast_self, shapeCast_self,
    iota_single_apply, iota_single_apply, maskWord]

/-! ## A lane sum at a row -/

/-- The sum over the lanes reads, at row p, the sum of the row's 8192 entries. -/
theorem laneSum_apply (x : FVec Ideal S128x8192 .f32) (h : Shape.Reduces S128x8192 [1] S128) (hφ : FKind.Formats .f32)
    (hacc : (0x00000000#32 : BitVec 32) = FKind.add.neutral .f32 hφ) (p : Fin 128) :
    multiReduction .add [1] S128 x 0x00000000#32 h hφ hacc (ix1 p) = ∑ q : Fin 8192, x (ix2 p q) := by
  have e : multiReduction .add [1] S128 x 0x00000000#32 h hφ hacc (ix1 p) = ∑ q : Fin 8192, x (h.lift (ix1 p) q) :=
    Ideal.multiReduction_add_single x _ h hφ hacc (ix1 p)
  rw [e]
  refine Finset.sum_congr rfl fun q _ => congrArg x ?_
  funext a
  match a with
  | ⟨0, _⟩ => rfl
  | ⟨1, _⟩ => rfl

/-- The lane sum kept as a column reads, at row p, the sum of the row's 8192 entries. -/
theorem rowSum_apply (x : FVec Ideal S128x8192 .f32) (p : Fin 128) (u : Fin 1) :
    rowSum x (ix2 p u) = ∑ q : Fin 8192, x (ix2 p q) := by
  unfold rowSum
  rw [shapeCast_a_a1_apply]
  exact laneSum_apply x _ _ _ p

/-! ## The payload at a row -/

/-- Entry (p, 0) of what the body stores is the loss of the block's row p. -/
theorem pay_apply (i : grid0.Coords) (zn : Vec Ideal S8192x128 .f32) (lab : Cert.Spec.SLab.Idx → BitVec 32)
    (v0 : Vec Ideal S128x128 .f32) (v8 : Vec Ideal S128x1 .i32) (v10 : Vec Ideal S1x8192 .i32)
    (row : Fin 128 → Fin 8192) (hrow : ∀ p, (row p).val = (i 0).val * 128 + p.val)
    (hv0 : ∀ (p k : Fin 128), v0 (ix2 p k) = zn (ix2 (row p) k))
    (hv8 : ∀ p : Fin 128, v8 (ix2 p 0) = lab (ix1 (row p)))
    (hv10 : ∀ q : Fin 8192, v10 (ix2 0 q) = lab (ix1 q))
    (p : Fin 128) :
    k0_pay1 (F := Ideal) i v0 zn v8 v10 (ix2 p 0) = Cert.Spec.loss zn lab (row p) := by
  -- the similarities of row p are the specification's
  have hsim : ∀ q, simV v0 zn (ix2 p q) = Cert.Spec.sim zn (row p) q := fun q => by
    rw [simV_apply]
    unfold Cert.Spec.sim
    congr 1
    exact Finset.sum_congr rfl fun k _ => by rw [hv0]
  -- the mask of row p is the specification's: the row numbers' words are equal exactly when the rows are
  have hmask : ∀ q, maskV i v8 v10 (ix2 p q) = Cert.Spec.mask lab (row p) q := fun q => by
    rw [maskV_apply, hv8, hv10]
    unfold Cert.Spec.mask
    have hlt : (i 0).val * 128 + p.val < 8192 := by rw [← hrow]; exact (row p).isLt
    have hiff := rowWord_eq_iff (i 0).val p.val q.val hlt q.isLt
    by_cases h : lab (ix1 (row p)) = lab (ix1 q) ∧ row p ≠ q
    · rw [if_pos h, if_pos ⟨h.1, fun hw => h.2 (Fin.ext (by rw [hrow]; exact hiff.mp hw))⟩]
    · rw [if_neg h, if_neg (fun h' => h ⟨h'.1, fun he => h'.2 (hiff.mpr (by rw [← hrow, he]))⟩)]
  have hpos : rowSum (mulf (simV v0 zn) (maskV i v8 v10)) (ix2 p 0) = Cert.Spec.pos zn lab (row p) := by
    rw [rowSum_apply]
    unfold Cert.Spec.pos
    exact Finset.sum_congr rfl fun q _ => by rw [mulf_apply, hsim, hmask]
  have hneg : rowSum (mulf (simV v0 zn)
      (subf (broadcast S128x8192 (Scalar.ofBits (F := Ideal) .f32 0x3F800000#32)) (maskV i v8 v10))) (ix2 p 0)
        = Cert.Spec.neg zn lab (row p) := by
    rw [rowSum_apply]
    unfold Cert.Spec.neg
    refine Finset.sum_congr rfl fun q _ => ?_
    rw [mulf_apply, subf_apply, broadcast_apply, hsim, hmask]
    show _ * (Ideal.ofBits .f32 0x3F800000#32 - _) = _
    rw [Ideal.ofBits_one_f32]
  rw [pay_eq, subf_apply, broadcast_apply]
  show Ideal.ofBits .f32 0x00000000#32
      - Ideal.log (Ideal.div (rowSum _ (ix2 p 0)) (rowSum _ (ix2 p 0) + rowSum _ (ix2 p 0))) = _
  rw [hpos, hneg, Ideal.ofBits_zero_f32, zero_sub]
  rfl

end Cert.KernelIdeal.RowValue

end
-- ==== Proof.KernelIdealValue.lean ====
/-
  What the idealized program returns, over the extended reals: the mean over the 8192 rows of the rows' losses.

  At grid point t the output block's one store is the body's payload over the four input blocks; those blocks are rows
  t·128 … t·128+127 of the normalised rows, all the normalised rows, the same rows' labels, and all the labels, so the payload
  at row p of the block is the loss of row t·128+p. The 64 blocks tile the result column, which therefore holds the loss of
  every row; the four host lines after the region sum the column and divide by 8192.
-/
import proofs.«122973_j28690381537554_1_alg».proof.Proof.KernelIdealRun
import proofs.«122973_j28690381537554_1_alg».proof.Proof.KernelIdealBlocks
import proofs.«122973_j28690381537554_1_alg».proof.Proof.KernelIdealTail
import proofs.«122973_j28690381537554_1_alg».proof.Proof.RowLoss
import proofs.«122973_j28690381537554_1_alg».proof.Proof.Spec
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat)
open Idealize.ShloMosaic.Pipeline.SharedArrays

variable (m : (ℓ : Loc nD τ sig) → Buf (Elt Ideal) ℓ) (ρ : Dev nD → PrngReg)

/-- The access rectangles start at the origin. -/
theorem hz : (![0, 0] : Fin 2 → Nat) = fun _ => 0 := by
  funext a; match a with | ⟨0, _⟩ => rfl | ⟨1, _⟩ => rfl

/-- The output block is the body's payload over the four input blocks: one store through the whole block, four loads
    through whole blocks. -/
theorem outBlk_eq (i : grid0.Coords) (x0 : Vec Ideal S128x128 .f32) (x1 : Vec Ideal S8192x128 .f32) (x2 : Vec Ideal S128x1 .i32)
    (x3 : Vec Ideal S1x8192 .i32) : outBlk i x0 x1 x2 x3 = k0_pay1 i x0 x1 x2 x3 := by
  unfold outBlk
  rw [View.canon_unit_zero hz]
  rw [View.ld_unit_zero (S := S128x128) hz, View.ld_unit_zero (S := S8192x128) hz, View.ld_unit_zero (S := S128x1) hz,
    View.ld_unit_zero (S := S1x8192) hz]

/-- After the run the result column holds, at row r, the loss of row r. -/
theorem col_loss (c : Dev nD) (r : Fin 8192) :
    (dats (F := Ideal) m 0 c).arrAt 4 cfg0.N (ix2 r 0)
      = Cert.Spec.loss (V m c main_v4) (m ((c.tc : Thread nD τ).loc main_arg1)) r :=
  Cert.KernelIdeal.Blk.col_final m c (fun r => Cert.Spec.loss (V m c main_v4) (m ((c.tc : Thread nD τ).loc main_arg1)) r)
    (fun t p => by
      rw [outBlk_eq, Cert.KernelIdeal.Blk.iblk1_eq]
      exact Cert.KernelIdeal.RowValue.pay_apply (grid0.coords t) (V m c main_v4) (m ((c.tc : Thread nD τ).loc main_arg1))
        (iblk m c 0 t) (iblk m c 2 t) (iblk m c 3 t) (Cert.KernelIdeal.Blk.row t) (Cert.KernelIdeal.Blk.row_val t)
        (Cert.KernelIdeal.Blk.iblk0_apply m c t) (Cert.KernelIdeal.Blk.iblk2_apply m c t) (Cert.KernelIdeal.Blk.iblk3_apply m c t) p) r

/-- THE VALUE RUN: every execution terminates with the result at the mean loss of the normalised rows as the region finds
    them and the labels as launched, the arguments unchanged. -/
theorem run_value : θ_run defs (onTc (τ := τ) (main (F := Ideal))) ⟨m, fun _ => 0, ρ⟩ (fun r => ∀ c : Dev nD,
      r.2.mem ((c.tc : Thread nD τ).loc main_v9)
        = (fun _ => Cert.Spec.meanLoss (V m c main_v4) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v9 (Pipeline.mem_restRefs_of main_v9 (by decide) (by decide))).trans (funext fun i =>
        (Cert.KernelIdeal.Tail.tail_value m c _ i).trans (by
          unfold Cert.Spec.meanLoss
          exact congrArg (fun s => Ideal.div s ((8192 : ℝ) : EReal)) (Finset.sum_congr rfl fun r _ => col_loss m c r))),
     ((h c).2 main_arg0 (Pipeline.mem_restRefs_of main_arg0 (by decide) (by decide))).trans (keep_arg0 m c _),
     ((h c).2 main_arg1 (Pipeline.mem_restRefs_of main_arg1 (by decide) (by decide))).trans (keep_arg1 m c _)⟩) (run_main m ρ)

end Cert.KernelIdeal.Val

end
-- ==== Proof.RefIsSpec.lean ====
/-
  The reference program's result is the specification's mean loss of the normalised rows and the labels.

  Each stage of the reference after the row normalisation is read at explicit coordinates and identified with the
  corresponding quantity of the specification: the scaled similarity, the positive mask, the two row sums, the row's
  loss and the mean over the rows.
-/
import proofs.«122973_j28690381537554_1_alg».proof.Proof.Gen.ReferenceIdeal.Read
import proofs.«122973_j28690381537554_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx

/-! ## The float literals of the reference -/

/-- The word `0x3F000000` is one half. -/
theorem lit_half : Ideal.ofBits .f32 0x3F000000#32 = ((0.5 : ℝ) : EReal) := by
  simp [Ideal.ofBits, Ideal.ieee, -EReal.coe_mul]; norm_num

/-- The word `0x3F800000` is one. -/
theorem lit_one : Ideal.ofBits .f32 0x3F800000#32 = 1 := by
  simp [Ideal.ofBits, Ideal.ieee, -EReal.coe_mul]; norm_num

/-- The word `0x46000000` is 8192. -/
theorem lit_8192 : Ideal.ofBits .f32 0x46000000#32 = ((8192 : ℝ) : EReal) := by
  simp [Ideal.ofBits, Ideal.ieee, -EReal.coe_mul]; norm_num

/-! ## The scaled similarity -/

/-- The dot product's left operand index at entry `(r, q)` and contraction coordinate `k` is `(r, k)`. -/
theorem lidx_ix2 (r q : Fin 8192) (k : Fin 128) : lidx_main_v5 (ix2 r q) k = ix2 r k := by
  funext a; match a with | ⟨0, _⟩ => rfl | ⟨1, _⟩ => rfl

/-- The dot product's right operand index at entry `(r, q)` and contraction coordinate `k` is `(q, k)`. -/
theorem ridx_ix2 (r q : Fin 8192) (k : Fin 128) : ridx_main_v5 (ix2 r q) k = ix2 q k := by
  funext a; match a with | ⟨0, _⟩ => rfl | ⟨1, _⟩ => rfl

/-- Entry `(r, q)` of the similarity matrix: the rows' dot product divided by one half, that is, doubled. -/
theorem sim_apply (x0 : (⟨S8192x128, .f32⟩ : BufTy).Contents (Elt Ideal)) (r q : Fin 8192) :
    val_main_v7 (F := Ideal) x0 (ix2 r q) = Cert.Spec.sim (val_main_v4 (F := Ideal) x0) r q := by
  rw [val_main_v7_apply, val_main_v5_apply, val_main_v6_apply, val_main_cst_0_apply, Ideal.hostDivf_def,
    Ideal.ofBits_def, lit_half, Ideal.div_coe (by norm_num)]
  unfold Cert.Spec.sim
  simp only [lidx_ix2, ridx_ix2]
  congr 1
  norm_num
  first | rfl | norm_cast | exact EReal.coe_ofNat 2

/-! ## The positive mask -/

/-- An equality test converted to a float is one where the words agree and zero elsewhere. -/
theorem uitofp_cmpi_eq {w : Nat} (x y : BitVec w) :
    FloatOps.uitofp (F := Ideal) .f32 (IntOp.cmpi .eq x y) = if x = y then 1 else 0 := by
  show (((IntOp.cmpi .eq x y).toNat : ℝ) : EReal) = _
  by_cases h : x = y
  · subst h; simp [IntOp.cmpi]
  · simp [IntOp.cmpi, h]

/-- Two row numbers have the same 32-bit word exactly when they are the same row. -/
theorem ofNat_row_eq_iff (r q : Fin 8192) : BitVec.ofNat 32 r.val + 0#32 = BitVec.ofNat 32 q.val ↔ r = q := by
  have hr := r.isLt
  have hq := q.isLt
  constructor
  · intro h
    have h' := congrArg BitVec.toNat h
    simp only [BitVec.add_zero, BitVec.toNat_ofNat] at h'
    apply Fin.ext
    omega
  · rintro rfl; simp

/-- The label broadcast down the columns, read at `(r, q)`, is row `r`'s label. -/
theorem idx_rowlab (r q : Fin 8192) : idx_main_v8 (idx_main_v10 (ix2 r q)) = ix1 r := by
  funext a; match a with | ⟨0, _⟩ => rfl

/-- The label broadcast along the rows, read at `(r, q)`, is row `q`'s label. -/
theorem idx_collab (r q : Fin 8192) : idx_main_v9 (idx_main_v11 (ix2 r q)) = ix1 q := by
  funext a; match a with | ⟨0, _⟩ => rfl

/-- Entry `(r, q)` of the label-equality matrix. -/
theorem sameLabel_apply (x1 : (⟨S8192, .i32⟩ : BufTy).Contents (Elt Ideal)) (r q : Fin 8192) :
    val_main_v13 (F := Ideal) x1 (ix2 r q) = if x1 (ix1 r) = x1 (ix1 q) then 1 else 0 := by
  rw [val_main_v13_apply, val_main_v12_apply, val_main_v10_apply, val_main_v8_apply, val_main_v11_apply,
    val_main_v9_apply, idx_rowlab, idx_collab, uitofp_cmpi_eq]

/-- Entry `(r, q)` of the off-diagonal matrix: one minus the identity. -/
theorem offDiag_apply (r q : Fin 8192) :
    val_main_v21 (F := Ideal) (ix2 r q) = 1 - (if r = q then 1 else 0) := by
  rw [val_main_v21_apply, val_main_v20_apply, val_main_cst_1_apply, val_main_v19_apply, val_main_v18_apply,
    val_main_v17_apply, val_main_v14_apply, val_main_v16_apply, val_main_c_apply, val_main_v15_apply,
    uitofp_cmpi_eq, Ideal.subf_def, Ideal.ofBits_def, lit_one]
  show (1 : EReal) - (if IntOp.addi (BitVec.ofNat 32 r.val) 0#32 = BitVec.ofNat 32 q.val then 1 else 0) = _
  simp only [IntOp.addi, ofNat_row_eq_iff]

/-- One minus one is zero in the extended reals. -/
theorem one_sub_one : (1 : EReal) - 1 = 0 := by
  rw [← EReal.coe_one, ← EReal.coe_sub, sub_self, EReal.coe_zero]

/-- Entry `(r, q)` of the mask: same label and not the diagonal. -/
theorem mask_apply (x1 : (⟨S8192, .i32⟩ : BufTy).Contents (Elt Ideal)) (r q : Fin 8192) :
    val_main_v22 (F := Ideal) x1 (ix2 r q) = Cert.Spec.mask x1 r q := by
  rw [val_main_v22_apply, sameLabel_apply, offDiag_apply, Ideal.mulf_def]
  unfold Cert.Spec.mask
  by_cases hl : x1 (ix1 r) = x1 (ix1 q) <;> by_cases hd : r = q
  · rw [if_pos hl, if_pos hd, if_neg (fun h => h.2 hd), one_sub_one, mul_zero]
  · rw [if_pos hl, if_neg hd, if_pos ⟨hl, hd⟩, sub_zero, mul_one]
  · rw [if_neg hl, zero_mul, if_neg (fun h => hl h.1)]
  · rw [if_neg hl, zero_mul, if_neg (fun h => hl h.1)]

/-! ## The two row sums -/

/-- The positives' sum runs over the entries `(r, k)` of row `r`. -/
theorem idx_posRow (r k : Fin 8192) : idx_main_v24 (ix1 r) k = ix2 r k := by
  funext a; match a with | ⟨0, _⟩ => rfl | ⟨1, _⟩ => rfl

/-- The negatives' sum runs over the entries `(r, k)` of row `r`. -/
theorem idx_negRow (r k : Fin 8192) : idx_main_v28 (ix1 r) k = ix2 r k := by
  funext a; match a with | ⟨0, _⟩ => rfl | ⟨1, _⟩ => rfl

/-- Row `r`'s sum of the similarities over its positives. -/
theorem pos_apply (x0 : (⟨S8192x128, .f32⟩ : BufTy).Contents (Elt Ideal))
    (x1 : (⟨S8192, .i32⟩ : BufTy).Contents (Elt Ideal)) (r : Fin 8192) :
    val_main_v24 (F := Ideal) x0 x1 (ix1 r) = Cert.Spec.pos (val_main_v4 (F := Ideal) x0) x1 r := by
  rw [val_main_v24_apply, val_main_cst_2_apply, Ideal.ofBits_def, Ideal.ofBits_zero_f32, zero_add]
  unfold Cert.Spec.pos
  refine Finset.sum_congr rfl fun k _ => ?_
  rw [idx_posRow, val_main_v23_apply, sim_apply, mask_apply, Ideal.mulf_def]

/-- Row `r`'s sum of the similarities over everything that is not a positive. -/
theorem neg_apply (x0 : (⟨S8192x128, .f32⟩ : BufTy).Contents (Elt Ideal))
    (x1 : (⟨S8192, .i32⟩ : BufTy).Contents (Elt Ideal)) (r : Fin 8192) :
    val_main_v28 (F := Ideal) x0 x1 (ix1 r) = Cert.Spec.neg (val_main_v4 (F := Ideal) x0) x1 r := by
  rw [val_main_v28_apply, val_main_cst_4_apply, Ideal.ofBits_def, Ideal.ofBits_zero_f32, zero_add]
  unfold Cert.Spec.neg
  refine Finset.sum_congr rfl fun k _ => ?_
  rw [idx_negRow, val_main_v27_apply, val_main_v26_apply, val_main_v25_apply, val_main_cst_3_apply, sim_apply,
    mask_apply, Ideal.mulf_def, Ideal.subf_def, Ideal.ofBits_def, lit_one]

/-! ## The row's loss -/

/-- Row `r`'s loss: minus the logarithm of the positives' share of the row's total. -/
theorem loss_apply (x0 : (⟨S8192x128, .f32⟩ : BufTy).Contents (Elt Ideal))
    (x1 : (⟨S8192, .i32⟩ : BufTy).Contents (Elt Ideal)) (r : Fin 8192) :
    val_main_v32 (F := Ideal) x0 x1 (ix1 r) = Cert.Spec.loss (val_main_v4 (F := Ideal) x0) x1 r := by
  rw [val_main_v32_apply, val_main_v31_apply, val_main_v30_apply, val_main_v29_apply, pos_apply, neg_apply,
    Ideal.hostNegf_def, Ideal.negf_def, Ideal.hostUnary_log_def, Ideal.hostDivf_def, Ideal.addf_def]
  rfl

/-! ## The mean over the rows -/

/-- The indices of the rank-one shape of extent 8192 are the row numbers. -/
def rowEquiv : S8192.Idx ≃ Fin 8192 where
  toFun j := j 0
  invFun r := ix1 r
  left_inv j := (eq_ix1 j).symm
  right_inv _ := rfl

/-- The reference's result is the mean of the rows' losses. -/
theorem ref_result (x0 : (⟨S8192x128, .f32⟩ : BufTy).Contents (Elt Ideal))
    (x1 : (⟨S8192, .i32⟩ : BufTy).Contents (Elt Ideal)) (i : S_.Idx) :
    Cert.ReferenceIdeal.Read.val_main_v34 (F := Ideal) x0 x1 i
      = Cert.Spec.meanLoss (Cert.ReferenceIdeal.Read.val_main_v4 (F := Ideal) x0) x1 := by
  rw [val_main_v34_apply, val_main_v33_apply, val_main_cst_5_apply, val_main_cst_6_apply, Ideal.hostDivf_def,
    Ideal.ofBits_def, Ideal.ofBits_def, Ideal.ofBits_zero_f32, lit_8192, zero_add]
  unfold Cert.Spec.meanLoss
  refine congrArg (fun s => Ideal.div s ((8192 : ℝ) : EReal)) ?_
  rw [← Equiv.sum_comp rowEquiv.symm]
  exact Finset.sum_congr rfl fun r _ => loss_apply x0 x1 r

end Cert.ReferenceIdeal.RefValue

end
-- ==== Proof.lean ====
/-
  The certificate of the contrastive-loss kernel against its reference.

  Both programs normalise the rows of the input by the same host lines (each row divided by the larger of its Euclidean norm
  and a floor), so the normalised rows `zn` are one function of the argument on both sides and are never opened. From `zn`
  and the labels both compute, over the extended reals, the mean over the 8192 rows of
      loss r = −log (pos r / (pos r + neg r)),   pos r = ∑ q, sim r q · mask r q,   neg r = ∑ q, sim r q · (1 − mask r q),
  with sim r q = (∑ k, zn r k · zn q k) · 2 and mask r q = 1 exactly where the labels agree off the diagonal.
  The kernel forms sim by a matrix product of a 128-row block with all rows transposed and a product with 2, the reference by a
  contraction of the rows with themselves and a quotient by 1/2; the kernel forms the mask from two integer comparisons (the
  row number is the grid point times 128 plus the row within the block, far below 2³²), the reference as a product of two 0/1
  arrays; the kernel takes the mean over an 8192×1 column, the reference over a vector. None of these differences is visible
  over the extended reals, and no law used needs the inputs finite.

  The kernel's two input windows on the normalised rows read ONE array: its frame is the one-region frame run for windows
  that share an array, the array's full share divided between the two windows at the region's entry.
-/
import proofs.«122973_j28690381537554_1_alg».proof.Defs
import proofs.«122973_j28690381537554_1_alg».proof.Proof.Gen.Kernel
import proofs.«122973_j28690381537554_1_alg».proof.Proof.Gen.KernelIdeal
import proofs.«122973_j28690381537554_1_alg».proof.Proof.Gen.ReferenceIdeal
import proofs.«122973_j28690381537554_1_alg».proof.Proof.Gen.Pre_finite_inputs
import proofs.«122973_j28690381537554_1_alg».proof.Proof.Gen.ReferenceIdeal.Run
import proofs.«122973_j28690381537554_1_alg».proof.Proof.Gen.ReferenceIdeal.Read
import proofs.«122973_j28690381537554_1_alg».proof.Proof.KernelRun
import proofs.«122973_j28690381537554_1_alg».proof.Proof.KernelIdealRun
import proofs.«122973_j28690381537554_1_alg».proof.Proof.KernelIdealValue
import proofs.«122973_j28690381537554_1_alg».proof.Proof.RefIsSpec
import Idealize.ShloMosaic.Adequacy
import Idealize.ShloMosaic.Init

noncomputable section

namespace Cert.Proof

open Idealize.ShloMosaic Idealize.ShloMosaic.TcCoe Idealize.SL.Sem

/-- The rows the kernel's region finds are the reference's normalised rows of the same argument: the same host lines. -/
theorem zn_eq (m : (ℓ : Loc Cert.KernelIdeal.nD Cert.KernelIdeal.τ Cert.KernelIdeal.sig) → Buf (Elt Ideal) ℓ) (c : Dev Cert.KernelIdeal.nD) :
    Cert.KernelIdeal.Fr.V (F := Ideal) m c Cert.KernelIdeal.main_v4
      = Cert.ReferenceIdeal.Read.val_main_v4 (F := Ideal) (m ((c.tc : Thread Cert.KernelIdeal.nD Cert.KernelIdeal.τ).loc Cert.KernelIdeal.main_arg0)) := by
  dsimp only [Cert.KernelIdeal.Fr.V, Cert.KernelIdeal.Fr.V0]
  simp only [Cert.KernelIdeal.Gen.hostOps0, Cert.KernelIdeal.Gen.hostOps0_1, List.flatten_cons, List.flatten_nil, List.append_nil, List.cons_append, List.nil_append]
  after_results
  rfl

theorem frame_k : Cert.frame_Kernel (hKernel := Cert.Kernel.Gen.facts) (hPre_finite_inputs := Cert.Pre_finite_inputs.Gen.facts) :=
  fun m ρ _ => Cert.Kernel.Fr.frame m ρ

theorem frame_ki : Cert.frame_KernelIdeal (hKernelIdeal := Cert.KernelIdeal.Gen.facts) (hPre_finite_inputs := Cert.Pre_finite_inputs.Gen.facts) :=
  fun m ρ _ => Cert.KernelIdeal.Fr.frame m ρ

/-- The reference has no kernel: its frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end at the mean loss of the same normalised rows and labels. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => fun _ => Cert.Spec.meanLoss (Cert.KernelIdeal.Fr.V (F := Ideal) m c Cert.KernelIdeal.main_v4)
      (m ((c.tc : Thread Cert.KernelIdeal.nD Cert.KernelIdeal.τ).loc Cert.KernelIdeal.main_arg1)),
    Cert.KernelIdeal.Val.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, (hagree c).1, (hagree c).2]
  funext i
  rw [Cert.ReferenceIdeal.RefValue.ref_result]
  exact congrArg (fun z => Cert.Spec.meanLoss z (m ((c.tc : Thread Cert.KernelIdeal.nD Cert.KernelIdeal.τ).loc Cert.KernelIdeal.main_arg1)))
    (zn_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
